-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S640000 : Shape := ⟨1, ![640000]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S640000 : S_.BroadcastsInDim S640000 (![] : Fin 0 → Fin S640000.rank)
  reducesTo_S640000_S_d0 : S640000.ReducesTo [0] S_

variable [Facts]

def fn_part1 {F : FTy → Type} [FloatOps F] (main_v10 : IVec S_ 1) (main_v15 : IVec S640000 1) (main_c_5 : IVec S_ 1) : IVec S_ 1 :=
  let main_v16 : IVec S_ 1 := (fun x v => Host.reduce IntOp.andi x v reducesTo_S640000_S_d0 h_S_) main_v15 main_c_5
  let main_v17 : IVec S_ 1 := andi main_v10 main_v16
  main_v17

def fn {F : FTy → Type} [FloatOps F] (main_arg0 : FVec F S10000x128 .f32) (main_arg1 : IVec S640000 32) (main_arg2 : IVec S640000 32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_c_0 : IVec S_ 32 := constantI S_ 32 0#32
  let main_v4 : IVec S640000 32 := broadcastInDim S640000 ![] bcast_S_S640000 main_c_0
  let main_v5 : IVec S640000 1 := cmpi .sge main_arg1 main_v4
  let main_c_1 : IVec S_ 32 := constantI S_ 32 10000#32
  let main_v6 : IVec S640000 32 := broadcastInDim S640000 ![] bcast_S_S640000 main_c_1
  let main_v7 : IVec S640000 1 := cmpi .slt main_arg1 main_v6
  let main_v8 : IVec S640000 1 := andi main_v5 main_v7
  let main_c_2 : IVec S_ 1 := constantI S_ 1 1#1
  let main_v9 : IVec S_ 1 := (fun x v => Host.reduce IntOp.andi x v reducesTo_S640000_S_d0 h_S_) main_v8 main_c_2
  let main_v10 : IVec S_ 1 := andi main_v3 main_v9
  let main_c_3 : IVec S_ 32 := constantI S_ 32 0#32
  let main_v11 : IVec S640000 32 := broadcastInDim S640000 ![] bcast_S_S640000 main_c_3
  let main_v12 : IVec S640000 1 := cmpi .sge main_arg2 main_v11
  let main_c_4 : IVec S_ 32 := constantI S_ 32 10000#32
  let main_v13 : IVec S640000 32 := broadcastInDim S640000 ![] bcast_S_S640000 main_c_4
  let main_v14 : IVec S640000 1 := cmpi .slt main_arg2 main_v13
  let main_v15 : IVec S640000 1 := andi main_v12 main_v14
  let main_c_5 : IVec S_ 1 := constantI S_ 1 1#1
  fn_part1 (F := F) main_v10 main_v15 main_c_5
-- ==== Kernel.lean ====
abbrev S10000x128 : Shape := ⟨2, ![10000, 128]⟩
abbrev S640000 : Shape := ⟨1, ![640000]⟩
abbrev S625x1024 : Shape := ⟨2, ![625, 1024]⟩
abbrev S625x2048 : Shape := ⟨2, ![625, 2048]⟩
abbrev S1280000x1 : Shape := ⟨2, ![1280000, 1]⟩
abbrev S_ : Shape := ⟨0, ![]⟩
abbrev S10240x128 : Shape := ⟨2, ![10240, 128]⟩
abbrev S640000x1 : Shape := ⟨2, ![640000, 1]⟩
abbrev S2048x1 : Shape := ⟨2, ![2048, 1]⟩
abbrev S1024x1 : Shape := ⟨2, ![1024, 1]⟩
abbrev S2048x128 : Shape := ⟨2, ![2048, 128]⟩
abbrev S1x2048 : Shape := ⟨2, ![1, 2048]⟩
abbrev S2048x2048 : Shape := ⟨2, ![2048, 2048]⟩
abbrev S1024x128 : Shape := ⟨2, ![1024, 128]⟩
abbrev S1024 : Shape := ⟨1, ![1024]⟩

abbrev nBuf : Space → Nat
  | .hbm => 12
  | .vmem => 6
  | .smem => 0
  | _ => 0

abbrev bufTy : (tb : Table) → Fin (tcTables nBuf tb) → BufTy
  | .hbm, ⟨0, _⟩ => ⟨S10000x128, .f32⟩
  | .hbm, ⟨1, _⟩ => ⟨S640000, .i32⟩
  | .hbm, ⟨2, _⟩ => ⟨S640000, .i32⟩
  | .hbm, ⟨3, _⟩ => ⟨S625x1024, .i32⟩
  | .hbm, ⟨4, _⟩ => ⟨S625x1024, .i32⟩
  | .hbm, ⟨5, _⟩ => ⟨S625x2048, .i32⟩
  | .hbm, ⟨6, _⟩ => ⟨S1280000x1, .i32⟩
  | .hbm, ⟨7, _⟩ => ⟨S_, .i32⟩
  | .hbm, ⟨8, _⟩ => ⟨S_, .f32⟩
  | .hbm, ⟨9, _⟩ => ⟨S10240x128, .f32⟩
  | .hbm, ⟨10, _⟩ => ⟨S10240x128, .bf16⟩
  | .hbm, ⟨11, _⟩ => ⟨S640000x1, .f32⟩
  | .local _ .vmem, ⟨0, _⟩ => ⟨S2048x1, .i32⟩
  | .local _ .vmem, ⟨1, _⟩ => ⟨S2048x1, .i32⟩
  | .local _ .vmem, ⟨2, _⟩ => ⟨S10240x128, .bf16⟩
  | .local _ .vmem, ⟨3, _⟩ => ⟨S1024x1, .f32⟩
  | .local _ .vmem, ⟨4, _⟩ => ⟨S1024x1, .f32⟩
  | .local _ .vmem, ⟨5, _⟩ => ⟨S2048x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_call0_v0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![625], ![false]⟩

@[reducible] def k0_t1_loop : Scf.Loop 32 :=
  let c0_i32 : BitVec 32 := 0#32
  let c5_i32 : BitVec 32 := 5#32
  let v6 : BitVec 32 := Scalar.addi c0_i32 c5_i32
  let c1_i32 : BitVec 32 := 1#32
  ⟨c0_i32, v6, c1_i32⟩
def k0_mult1 (k0_t1 : Fin k0_t1_loop.trips) : BitVec 32 :=
  let c0_i32 : BitVec 32 := 0#32
  let c1_i32 : BitVec 32 := 1#32
  let arg5 : BitVec 32 := Scf.iv c0_i32 c1_i32 k0_t1
  let c2048_i32 : BitVec 32 := 2048#32
  let v13 : BitVec 32 := Scalar.muli arg5 c2048_i32
  v13
def k0_off1 (k0_t1 : Fin k0_t1_loop.trips) : Fin 2 → Nat :=
  let c0_i32 : BitVec 32 := 0#32
  let c1_i32 : BitVec 32 := 1#32
  let arg5 : BitVec 32 := Scf.iv c0_i32 c1_i32 k0_t1
  let c2048_i32 : BitVec 32 := 2048#32
  let v13 : BitVec 32 := Scalar.muli arg5 c2048_i32
  let v14 : BitVec 32 := v13
  let v18 : Index := Scalar.indexCast v14
  let c0_10 : Index := 0#32
  ![v18.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x1 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S10240x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S640000_S625x1024 : S640000.ShapeCasts S625x1024
  concatenates_S625x1024_S625x1024_S625x2048_d1 : Shape.Concatenates [S625x1024, S625x1024] S625x2048 1
  shapeCasts_S625x2048_S1280000x1 : S625x2048.ShapeCasts S1280000x1
  pads_S10000x128_S10240x128_02400_000 : S10000x128.Pads (![0, 0] : Fin 2 → Nat) ![240, 0] ![0, 0] S10240x128
  h_S_ : 0 < S_.numel
  bitsLt_bf16_f32 : FTy.bits .bf16 < FTy.bits .f32
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  iota_S1x2048_d1_w32 : S1x2048.Iotas .tc 32 [1]
  broadcasts_S2048x1_S2048x2048 : S2048x1.Broadcasts S2048x2048
  broadcasts_S1x2048_S2048x2048 : S1x2048.Broadcasts S2048x2048
  natLt_1_32 : 1 < 32
  inb_S2048x128_S1024x128_0_0 : ∀ a, (![0, 0] : Fin 2 → Nat) a + S1024x128.size a ≤ S2048x128.size a
  h_S1024x128 : 0 < S1024x128.numel
  inb_S2048x128_S1024x128_1024_0 : ∀ a, (![1024, 0] : Fin 2 → Nat) a + S1024x128.size a ≤ S2048x128.size a
  reduces_S1024x128_S1024 : S1024x128.Reduces [1] S1024
  shapeCasts_S1024_S1024x1 : S1024.ShapeCasts S1024x1
  inb_S1024x1_S1024x1_0_0 : ∀ a, (![0, 0] : Fin 2 → Nat) a + S1024x1.size a ≤ S1024x1.size a
  h_S1024x1 : 0 < S1024x1.numel
  dot_S2048x2048_S2048x128_S2048x128_1_0_0_1_n_n_wf : DotDims.WF S2048x2048 S2048x128 S2048x128 [1] [0] [0] [1] [] []
  hrank0 : 0 < grid0.rank
  k0_t1_ok : k0_t1_loop.OK
  k0_mult1_dvd : ∀ k0_t1 : Fin k0_t1_loop.trips, 2048 ∣ (k0_mult1 k0_t1).toNat
  k0_off1_inb : ∀ k0_t1 : Fin k0_t1_loop.trips, ∀ a, (k0_off1 k0_t1) a + S2048x128.size a ≤ S10240x128.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x1.size a ≤ S1280000x1.size a
  hwx0_0 : ∀ i : grid0.Coords, EltTy.bits .i32 = 32 ∨ (Rect.block (s := S1280000x1) S2048x1.size (cc0_transform_0 i) (hinb0_0 i)).WholeWords (EltTy.packing .i32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S10240x128.size a ≤ S10240x128.size a
  hwx0_1 : ∀ i : grid0.Coords, EltTy.bits .bf16 = 32 ∨ (Rect.block (s := S10240x128) S10240x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S640000x1.size a
  hwx0_2 : ∀ i : grid0.Coords, EltTy.bits .f32 = 32 ∨ (Rect.block (s := S640000x1) S1024x1.size (cc0_transform_2 i) (hinb0_2 i)).WholeWords (EltTy.packing .f32)

variable [Facts₀]

def dot_S2048x2048_S2048x128_S2048x128_1_0_0_1_n_n : DotDims S2048x2048 S2048x128 S2048x128 where
  lhsContracting := [1]
  rhsContracting := [0]
  lhsNonContracting := [0]
  rhsNonContracting := [1]
  lhsBatch := []
  rhsBatch := []
  wf := dot_S2048x2048_S2048x128_S2048x128_1_0_0_1_n_n_wf

abbrev win0_0 : Pipeline.Window sig grid0 :=
  Pipeline.Window.ofSpec (Memref.whole main_v3) S2048x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S10240x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v6) S1024x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S10000x128 : Shape := ⟨2, ![10000, 128]⟩
abbrev S640000 : Shape := ⟨1, ![640000]⟩
abbrev S_ : Shape := ⟨0, ![]⟩
abbrev S640000x1 : Shape := ⟨2, ![640000, 1]⟩
abbrev S640000x128 : Shape := ⟨2, ![640000, 128]⟩

abbrev nBuf : Space → Nat
  | .hbm => 25
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S640000, .i32⟩
  | .hbm, ⟨2, _⟩ => ⟨S640000, .i32⟩
  | .hbm, ⟨3, _⟩ => ⟨S_, .i32⟩
  | .hbm, ⟨4, _⟩ => ⟨S640000, .i32⟩
  | .hbm, ⟨5, _⟩ => ⟨S640000, .i1⟩
  | .hbm, ⟨6, _⟩ => ⟨S_, .i32⟩
  | .hbm, ⟨7, _⟩ => ⟨S640000, .i32⟩
  | .hbm, ⟨8, _⟩ => ⟨S640000, .i32⟩
  | .hbm, ⟨9, _⟩ => ⟨S640000, .i32⟩
  | .hbm, ⟨10, _⟩ => ⟨S640000x1, .i32⟩
  | .hbm, ⟨11, _⟩ => ⟨S640000x128, .f32⟩
  | .hbm, ⟨12, _⟩ => ⟨S_, .i32⟩
  | .hbm, ⟨13, _⟩ => ⟨S640000, .i32⟩
  | .hbm, ⟨14, _⟩ => ⟨S640000, .i1⟩
  | .hbm, ⟨15, _⟩ => ⟨S_, .i32⟩
  | .hbm, ⟨16, _⟩ => ⟨S640000, .i32⟩
  | .hbm, ⟨17, _⟩ => ⟨S640000, .i32⟩
  | .hbm, ⟨18, _⟩ => ⟨S640000, .i32⟩
  | .hbm, ⟨19, _⟩ => ⟨S640000x1, .i32⟩
  | .hbm, ⟨20, _⟩ => ⟨S640000x128, .f32⟩
  | .hbm, ⟨21, _⟩ => ⟨S640000x128, .f32⟩
  | .hbm, ⟨22, _⟩ => ⟨S_, .f32⟩
  | .hbm, ⟨23, _⟩ => ⟨S640000, .f32⟩
  | .hbm, ⟨24, _⟩ => ⟨S640000x1, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_c_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_c_1 : Ref sig .tc := ⟨.hbm, 12, rfl⟩
abbrev main_v7 : Ref sig .tc := ⟨.hbm, 13, rfl⟩
abbrev main_v8 : Ref sig .tc := ⟨.hbm, 14, rfl⟩
abbrev main_c_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst : Ref sig .tc := ⟨.hbm, 22, rfl⟩
abbrev main_v15 : Ref sig .tc := ⟨.hbm, 23, rfl⟩
abbrev main_v16 : Ref sig .tc := ⟨.hbm, 24, rfl⟩

abbrev nD : Nat := 1
abbrev τ : Topo := Topo.v7x

variable {F : FTy → Type} [FloatOps F]

class Facts₀ : Prop where
  bcast_S_S640000 : S_.BroadcastsInDim S640000 (![] : Fin 0 → Fin S640000.rank)
  bcast_S640000_S640000x1_0 : S640000.BroadcastsInDim S640000x1 (![0] : Fin 1 → Fin S640000x1.rank)
  reducesTo_S640000x128_S640000_d1 : S640000x128.ReducesTo [1] S640000
  h_S_ : 0 < S_.numel
  gather_S10000x128_S640000x1_S640000x128_1_0_n_n_0_1_1128_wf : GatherDims.WF S10000x128 S640000x1 S640000x128 [1] [0] [] [0] [] 1 ![1, 128]

variable [Facts₀]

def gather_S10000x128_S640000x1_S640000x128_1_0_n_n_0_1_1128 : GatherDims S10000x128 S640000x1 S640000x128 where
  offsetDims := [1]
  collapsedSliceDims := [0]
  operandBatchingDims := []
  startIndicesBatchingDims := []
  startIndexMap := [0]
  indexVectorDim := 1
  sliceSizes := ![1, 128]
  wf := gather_S10000x128_S640000x1_S640000x128_1_0_n_n_0_1_1128_wf

class Facts : Prop extends Facts₀ where

variable [Facts]
-- ==== Proof.LibKeepdims.lean ====
/-
  Column layouts read at an index: a vector [a] viewed as a column [a, 1], a column [a, 1] viewed as a
  vector [a], and a column [a, 1] broadcast along rows to [a, b] (what a reduction with kept dimensions
  produces and consumes). Each reads the operand at the row coordinate, the unit coordinate being 0.
-/
import Idealize.ShloMosaic.Lib.ValueIdx
import Idealize.ShloMosaic.Lib.ValueLayout
import Idealize.ShloMosaic.Lib.Pipeline.Value

namespace Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array cast to `[a]` reads, at `i`, the operand at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.Blocks.lean ====
/-
  What the region finds in its two input arrays, and what the blocks of a grid point are.

  The index column (1280000 words) is the row-major reading of the [625, 2048] array whose row `t` is the 1024 source
  words `src[1024 t …]` followed by the 1024 destination words `dst[1024 t …]`: so entry `2048 t + p` of the column is
  `src[1024 t + p]` and entry `2048 t + 1024 + p` is `dst[1024 t + p]` (p < 1024). The table the kernel reads is `h` with 240
  zero rows appended (its conversion to the narrower float format is the identity over the extended reals): row `n` of it
  is row `n` of `h` for n < 10000. Point `t` stages rows `2048 t … 2048 t + 2047` of the column, the whole table, and
  writes rows `1024 t … 1024 t + 1023` of the result.
-/
import proofs.«428832_j40724879901345_3_alg».proof.Proof.Gen.KernelIdeal.Value
import proofs.«428832_j40724879901345_3_alg».proof.Proof.LibKeepdims
import Idealize.ShloMosaic.Lib.StableHlo.Run
import Idealize.ShloMosaic.Lib.KernelVsHost
import Idealize.ShloMosaic.Lib.ValueLayout

set_option maxRecDepth 16384

noncomputable section

namespace Cert.KernelIdeal.Blocks

open Cert.KernelIdeal Cert.KernelIdeal.Gen Idealize.ShloMosaic Idealize.ShloMosaic.TcCoe Idealize.SL.Sem
open Idealize.ShloMosaic.StableHlo Idealize.ShloMosaic.ValueIdx

/-! ## The index column, over any two index arrays -/

section Column
variable (src dst : S640000.Idx → BitVec 32)

/-- The column the host builds from the two index arrays. -/
abbrev column : S1280000x1.Idx → BitVec 32 :=
  shapeCast S1280000x1
    (concatenate S625x2048 1 [⟨S625x1024, shapeCast S625x1024 src shapeCasts_S640000_S625x1024⟩,
      ⟨S625x1024, shapeCast S625x1024 dst shapeCasts_S640000_S625x1024⟩] concatenates_S625x1024_S625x1024_S625x2048_d1)
    shapeCasts_S625x2048_S1280000x1

/-- Entry (t, p) of an index array read as [625, 1024] is its entry `1024 t + p`. -/
theorem rows_apply (w : S640000.Idx → BitVec 32) (t : Fin 625) (p : Fin 1024) :
    shapeCast S625x1024 w shapeCasts_S640000_S625x1024 (ix2 t p) = w (ix1 ⟨1024 * t.val + p.val, by omega⟩) :=
  shapeCast_apply w _ _ _ (by
    rw [Shape.rowMajor_val_two, Shape.rowMajor_val_one]
    show 1024 * t.val + p.val = t.val * 1024 + p.val
    omega)

/-- Entry `2048 t + p` of the column, p < 1024: the source word `1024 t + p`. -/
theorem column_src (t : Fin 625) (p : Fin 1024) :
    column src dst (ix2 ⟨2048 * t.val + p.val, by omega⟩ (0 : Fin 1)) = src (ix1 ⟨1024 * t.val + p.val, by omega⟩) := by
  refine (shapeCast_apply _ shapeCasts_S625x2048_S1280000x1 _ (ix2 t (⟨p.val, by omega⟩ : Fin 2048)) (by
    rw [Shape.rowMajor_val_two, Shape.rowMajor_val_two]
    show t.val * 2048 + p.val = (2048 * t.val + p.val) * 1 + 0
    omega)).trans ?_
  refine (concatenate_pair_apply_left (t := S625x2048) (s₁ := S625x1024) (s₂ := S625x1024) (1 : Fin 2)
    (shapeCast S625x1024 src shapeCasts_S640000_S625x1024) (shapeCast S625x1024 dst shapeCasts_S640000_S625x1024)
    concatenates_S625x1024_S625x1024_S625x2048_d1 (ix2 t (⟨p.val, by omega⟩ : Fin 2048)) rfl (ix2 t p)
    (fun b => by match b with | ⟨0, _⟩ => rfl | ⟨1, _⟩ => rfl)).trans ?_
  exact rows_apply src t p

/-- Entry `2048 t + 1024 + p` of the column, p < 1024: the destination word `1024 t + p`. -/
theorem column_dst (t : Fin 625) (p : Fin 1024) :
    column src dst (ix2 ⟨2048 * t.val + (1024 + p.val), by omega⟩ (0 : Fin 1)) = dst (ix1 ⟨1024 * t.val + p.val, by omega⟩) := by
  refine (shapeCast_apply _ shapeCasts_S625x2048_S1280000x1 _ (ix2 t (⟨1024 + p.val, by omega⟩ : Fin 2048)) (by
    rw [Shape.rowMajor_val_two, Shape.rowMajor_val_two]
    show t.val * 2048 + (1024 + p.val) = (2048 * t.val + (1024 + p.val)) * 1 + 0
    omega)).trans ?_
  refine (concatenate_pair_apply_right (t := S625x2048) (s₁ := S625x1024) (s₂ := S625x1024) (1 : Fin 2)
    (shapeCast S625x1024 src shapeCasts_S640000_S625x1024) (shapeCast S625x1024 dst shapeCasts_S640000_S625x1024)
    concatenates_S625x1024_S625x1024_S625x2048_d1 (ix2 t (⟨1024 + p.val, by omega⟩ : Fin 2048)) rfl rfl (ix2 t p)
    (fun b hb => by match b with | ⟨0, _⟩ => rfl | ⟨1, _⟩ => exact absurd rfl hb) (by
      show p.val + 1024 = 1024 + p.val
      omega)).trans ?_
  exact rows_apply dst t p

end Column

/-! ## The padded table -/

/-- Row `n` < 10000 of the table with zero rows appended is row `n` of the table. -/
theorem padded_apply {α : Type} (h : S10000x128.Idx → α) (v : S_.Idx → α) (n : Fin 10240) (hn : n.val < 10000) (q : Fin 128) :
    pad S10240x128 ![0, 0] ![240, 0] ![0, 0] h v pads_S10000x128_S10240x128_02400_000 h_S_ (ix2 n q)
      = h (ix2 ⟨n.val, hn⟩ q) :=
  pad_apply_of_inside _ _ _ h v _ _ _ (ix2 ⟨n.val, hn⟩ q) (fun a => by
    match a with
    | ⟨0, _⟩ => show n.val = 0 + n.val * (0 + 1); omega
    | ⟨1, _⟩ => show q.val = 0 + q.val * (0 + 1); omega)

/-! ## The arrays as the region finds them -/

section Region
variable {F : FTy → Type} [FloatOps F] (m : (ℓ : Loc nD τ sig) → Buf (Elt F) ℓ)

/-- The index column as the region finds it: the column of the two index arguments. -/
theorem V_column (c : Dev nD) :
    (V m c main_v3 : S1280000x1.Idx → BitVec 32)
      = column (m ((c : Thread nD τ).loc main_arg1)) (m ((c : Thread nD τ).loc main_arg2)) := by
  dsimp only [V]
  simp only [hostOps0, hostOps0_1, hostOps0_2, List.flatten_cons, List.flatten_nil, List.append_nil, List.cons_append,
    List.nil_append]
  after_results
  rfl

/-- The table as the region finds it: the table argument with rows of the converted integer zero appended, converted
    to the narrower format. -/
theorem V_table (c : Dev nD) :
    (V m c main_v5 : S10240x128.Idx → F .bf16)
      = truncf .bf16 (pad S10240x128 ![0, 0] ![240, 0] ![0, 0] (m ((c : Thread nD τ).loc main_arg0))
          (sitofp (F := F) .f32 (constantI S_ 32 0#32)) pads_S10000x128_S10240x128_02400_000 h_S_) bitsLt_bf16_f32 := by
  dsimp only [V]
  simp only [hostOps0, hostOps0_1, hostOps0_2, List.flatten_cons, List.flatten_nil, List.append_nil, List.cons_append,
    List.nil_append]
  after_results
  rfl

/-- The block indices of the three windows, decided over the 625 grid points: the column's and the result's blocks
    advance with the point, the table's block is the whole table. -/
theorem idx_pts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Point `t`'s block of the index column and of the table, at their literal types. -/
abbrev xblk (c : Dev nD) (t : Fin cfg0.N) : Vec F S2048x1 .i32 := iblk m c 0 t
abbrev hblk (c : Dev nD) (t : Fin cfg0.N) : Vec F S10240x128 .bf16 := iblk m c 1 t

theorem t_lt (t : Fin cfg0.N) : t.val < 625 := N_0 ▸ t.isLt

/-- Row `r` of point `t`'s column block is entry `2048 t + r` of the column. -/
theorem xblk_apply (c : Dev nD) (t : Fin cfg0.N) (r : Fin 2048) :
    xblk m c t (ix2 r (0 : Fin 1))
      = column (m ((c : Thread nD τ).loc main_arg1)) (m ((c : Thread nD τ).loc main_arg2))
          (ix2 ⟨2048 * t.val + r.val, by have := t_lt t; omega⟩ (0 : Fin 1)) := by
  show V m c main_v3 (((cfg0.win 0).blk t).view.emb (ix2 r (0 : Fin 1))) = _
  rw [V_column]
  congr 1
  obtain ⟨e0, e1, -⟩ := idx_pts t
  funext a; apply Fin.ext
  match a with
  | ⟨0, _⟩ => show win0_0.index t (0 : Fin 2) * 2048 + 1 * r.val = 2048 * t.val + r.val; omega
  | ⟨1, _⟩ => show win0_0.index t (1 : Fin 2) * 1 + 1 * 0 = 0; omega

end Region

/-- Row `n` < 10000 of point `t`'s table block, over the extended reals, is row `n` of the table argument. -/
theorem hblk_apply (m : (ℓ : Loc nD τ sig) → Buf (Elt Ideal) ℓ) (c : Dev nD) (t : Fin cfg0.N) (n : Fin 10240)
    (hn : n.val < 10000) (q : Fin 128) :
    hblk m c t (ix2 n q) = m ((c : Thread nD τ).loc main_arg0) (ix2 ⟨n.val, hn⟩ q) := by
  show V m c main_v5 (((cfg0.win 1).blk t).view.emb (ix2 n q)) = _
  have e : ((cfg0.win 1).blk t).view.emb (ix2 n q) = ix2 n q := by
    obtain ⟨-, -, e2, e3, -⟩ := idx_pts t
    funext a; apply Fin.ext
    match a with
    | ⟨0, _⟩ => show win0_1.index t (0 : Fin 2) * 10240 + 1 * n.val = n.val; omega
    | ⟨1, _⟩ => show win0_1.index t (1 : Fin 2) * 128 + 1 * q.val = q.val; omega
  rw [e, V_table]
  exact padded_apply _ _ n hn q

end Cert.KernelIdeal.Blocks

end
-- ==== Proof.Body.lean ====
/-
  What the kernel body leaves in its output block, as a function of the two input blocks (the column of 2048 index
  words and the 10240-row table), at any float instance.

  The scratch accumulator is first filled with zeros; trip `k` of the loop over the five node tiles stores, over the
  whole accumulator, the accumulator it finds plus the product of the 0/1 selection matrix (index word = node id, for
  the node ids of tile `k`) with tile `k` of the table. So the accumulator after `k` trips is the recursion `accK`
  (`scratch_read`: by induction on the trips, each trip's one store covering everything written before it). The output
  block is the row sums of the product of the accumulator's upper and lower halves (`out_eq`).
-/
import proofs.«428832_j40724879901345_3_alg».proof.Proof.Gen.KernelIdeal.Frame
import Idealize.ShloMosaic.Lib.Pipeline.Value

set_option maxRecDepth 16384

noncomputable section

namespace Cert.KernelIdeal.Body

open Cert.KernelIdeal Cert.KernelIdeal.Gen Idealize.ShloMosaic Idealize.ShloMosaic.TcCoe Idealize.SL.Sem

variable {F : FTy → Type} [FloatOps F]

/-- The whole accumulator, as the rectangle the body's stores and loads name. -/
abbrev rAll : Rect S2048x128 := Rect.unit (s := S2048x128) ![0, 0] S2048x128.size inb_S2048x128_S2048x128_0_0
/-- Tile `k` of the table: rows `2048 k … 2048 k + 2047`. -/
abbrev rTile (k : Fin k0_t1_loop.trips) : Rect S10240x128 :=
  Rect.unit (s := S10240x128) (k0_off1 k) S2048x128.size (k0_off1_inb k)
/-- The upper and the lower half of the accumulator. -/
abbrev rTop : Rect S2048x128 := Rect.unit (s := S2048x128) ![0, 0] S1024x128.size inb_S2048x128_S1024x128_0_0
abbrev rBot : Rect S2048x128 := Rect.unit (s := S2048x128) ![1024, 0] S1024x128.size inb_S2048x128_S1024x128_1024_0

theorem zeros2 : (![0, 0] : Fin 2 → Nat) = fun _ => 0 := by
  funext a; match a with | ⟨0, _⟩ => rfl | ⟨1, _⟩ => rfl

/-- The one piece trip `k` writes, at the contents `f` it finds in the accumulator: over the whole accumulator, the
    payload of the loaded table tile and of the accumulator read back. (The trip's run is opened here, once.) -/
theorem tripL_eq (𝒱 : Variants) (c : Dev nD) (bd : Option 𝒱.V) (i : grid0.Coords)
    (arg1 : Memref sig .tc .vmem S2048x1 .i32) (harg1 : arg1.IsWhole) (arg2 : Memref sig .tc .vmem S10240x128 .bf16) (harg2 : arg2.IsWhole)
    (arg3 : Memref sig .tc .vmem S1024x1 .f32) (harg3 : arg3.IsWhole) (arg4 : Memref sig .tc .vmem S2048x128 .f32) (harg4 : arg4.IsWhole)
    (v4 : Vec F S2048x1 .i32) (X_arg2 : BufTy.Contents (Elt F) arg2.view.ty) (k : Fin k0_t1_loop.trips)
    (f : BufTy.Contents (Elt F) arg4.view.ty) :
    tripL_k0_t1 (F := F) 𝒱 c bd i arg1 harg1 arg2 harg2 arg3 harg3 arg4 harg4 v4 X_arg2 k f
      = [⟨rAll, k0_pay2 v4 k (View.ld (arg2.view.read (Elt F) X_arg2) (rTile k)) (View.ld (arg4.view.read (Elt F) f) rAll)⟩] := by
  unfold tripL_k0_t1 trip_k0_t1
  rfl

/-- The accumulator after `k` trips, from the index column `v4` and the table `hb`. -/
def accK (v4 : Vec F S2048x1 .i32) (hb : Vec F S10240x128 .bf16) : ℕ → Vec F S2048x128 .f32
  | 0 => k0_pay1 (F := F)
  | k + 1 =>
    if h : k < k0_t1_loop.trips then k0_pay2 v4 ⟨k, h⟩ (View.ld hb (rTile ⟨k, h⟩)) (accK v4 hb k)
    else accK v4 hb k

theorem accK_succ (v4 : Vec F S2048x1 .i32) (hb : Vec F S10240x128 .bf16) (k : Fin k0_t1_loop.trips) :
    accK v4 hb (k.val + 1) = k0_pay2 v4 k (View.ld hb (rTile k)) (accK v4 hb k.val) := by
  rw [accK, dif_pos k.isLt]

/-- The zero fill, as the list of one piece the run names. -/
abbrev fill : List (View.Piece (Elt F) S2048x128 .f32) := [⟨rAll, k0_pay1 (F := F)⟩]

/-- A list of stores whose last one is over the whole accumulator covers the accumulator. -/
theorem cover_all (w : rAll.shape.Idx → Elt F .f32) (L : List (View.Piece (Elt F) S2048x128 .f32)) (y : S2048x128.Idx) :
    ∃ p ∈ ((⟨rAll, w⟩ : View.Piece (Elt F) S2048x128 .f32) :: L), y ∈ p.1.set :=
  ⟨⟨rAll, w⟩, List.mem_cons_self, View.mem_set_unit_zero (S := S2048x128) zeros2 inb_S2048x128_S2048x128_0_0 y⟩

/-- THE ACCUMULATOR AFTER `k` TRIPS reads `accK … k`: the zero fill, then each trip's store over everything. -/
theorem scratch_read (𝒱 : Variants) (c : Dev nD) (bd : Option 𝒱.V) (i : grid0.Coords)
    (arg1 : Memref sig .tc .vmem S2048x1 .i32) (harg1 : arg1.IsWhole) (arg2 : Memref sig .tc .vmem S10240x128 .bf16) (harg2 : arg2.IsWhole)
    (arg3 : Memref sig .tc .vmem S1024x1 .f32) (harg3 : arg3.IsWhole) (arg4 : Memref sig .tc .vmem S2048x128 .f32) (harg4 : arg4.IsWhole)
    (v4 : Vec F S2048x1 .i32) (X_arg2 : BufTy.Contents (Elt F) arg2.view.ty) (k : ℕ) (hk : k ≤ k0_t1_loop.trips) :
      arg4.view.read (Elt F) (arg4.view.writes (Elt F) arg4.view.junk
        (pb_k0_t1 (F := F) 𝒱 c bd i arg1 harg1 arg2 harg2 arg3 harg3 arg4 harg4 v4 X_arg2
          (arg4.view.writes (Elt F) arg4.view.junk fill) k ++ fill))
        = accK v4 (arg2.view.read (Elt F) X_arg2) k := by
  induction k with
  | zero =>
    rw [pb_k0_t1, List.nil_append, View.read_writes_eq_canon _ _ _ (cover_all _ []), View.canon_unit_zero zeros2]
    rfl
  | succ k ih =>
    have ih' := ih (Nat.le_of_succ_le hk)
    have e := pb_k0_t1_succ (F := F) 𝒱 c bd i arg1 harg1 arg2 harg2 arg3 harg3 arg4 harg4 v4 X_arg2
      (arg4.view.writes (Elt F) arg4.view.junk fill) ⟨k, hk⟩
    rw [show k + 1 = (⟨k, hk⟩ : Fin k0_t1_loop.trips).val + 1 from rfl, e, tripL_eq, accK_succ]
    rw [List.singleton_append, List.cons_append, View.read_writes_eq_canon _ _ _ (cover_all _ _),
      View.canon_cons_unit_zero zeros2, View.ld_unit_zero zeros2, ← View.writes_append, ih']

/-- THE OUTPUT BLOCK: the body's one store to the output, of the payload of the accumulator's two halves after the last
    trip. (The body's run is opened here, once: its one output piece, and the two loads of the accumulator it names.) -/
theorem out_eq (c : Dev nD) (i : grid0.Coords)
    (arg1 : Memref sig .tc .vmem S2048x1 .i32) (harg1 : arg1.IsWhole) (arg2 : Memref sig .tc .vmem S10240x128 .bf16) (harg2 : arg2.IsWhole)
    (arg3 : Memref sig .tc .vmem S1024x1 .f32) (harg3 : arg3.IsWhole) (arg4 : Memref sig .tc .vmem S2048x128 .f32) (harg4 : arg4.IsWhole)
    (x0 : Vec F S2048x1 .i32) (x1 : Vec F S10240x128 .bf16) :
    out0_A_2 c i arg1 harg1 arg2 harg2 arg3 harg3 arg4 harg4 x0 x1
      = k0_pay3 (View.ld (accK x0 x1 k0_t1_loop.trips) rTop) (View.ld (accK x0 x1 k0_t1_loop.trips) rBot) := by
  unfold out0_A_2
  rw [View.read_writes_eq_canon _ _ _ (cover0_A_2 c i arg1 harg1 arg2 harg2 arg3 harg3 arg4 harg4 x0 x1)]
  unfold kernelRun0_A
  dsimp only
  rw [View.canon_unit_zero zeros2]
  unfold kernelRun0_A.sl.v7 kernelRun0_A.sl.v8 kernelRun0_A.sl.HS0_1
  have h1 : View.readAt (Elt F) arg1.view (Rect.unit (s := S2048x1) ![0, 0] S2048x1.size inb_S2048x1_S2048x1_0_0).toLoadRect
      (harg1.unread x0) = x0 := by
    rw [View.readAt_eq_ld, harg1.read_unread, View.ld_unit_zero zeros2]
  have hs := scratch_read (F := F) Variants.none c none i arg1 harg1 arg2 harg2 arg3 harg3 arg4 harg4
    (View.readAt (Elt F) arg1.view (Rect.unit (s := S2048x1) ![0, 0] S2048x1.size inb_S2048x1_S2048x1_0_0).toLoadRect (harg1.unread x0))
    (harg2.unread x1) k0_t1_loop.trips le_rfl
  refine congrArg (fun A => k0_pay3 (View.ld A rTop) (View.ld A rBot)) (hs.trans ?_)
  rw [h1, harg2.read_unread]

end Cert.KernelIdeal.Body

end
-- ==== Proof.OneHot.lean ====
/-
  The arithmetic of a row lookup done by a 0/1 selection matrix, over the extended reals.

  A word `a` is compared with the node ids `s, s+1, …, s+n-1` of one tile of the table; the comparison bit, widened and
  converted, is the extended real 1 where the word is that node id and 0 elsewhere (`onehot_entry`). The product of that
  row of zeros and ones with the tile's rows, summed over the tile, is the table's row `a` when `a` lies in the tile
  and 0 otherwise (`sum_onehot`): every term but at most one is `0 * x = 0`, and the one left is `1 * x = x` — both hold for
  EVERY extended real `x`, so no finiteness is used. Adding the tiles' contributions one after the other, the running
  total after `j` tiles of width `w` is the row `a` once `a < w * j` and 0 before (`acc_step`).
-/
import Idealize.ShloMosaic.PureOps.Ideal
import Idealize.ShloMosaic.Lib.StableHlo.Predicate
import Mathlib.Algebra.BigOperators.Group.Finset.Basic

noncomputable section

open scoped BigOperators

namespace Cert.GatherDot

open Idealize.ShloMosaic

/-- The comparison bit of two words, widened to a word and read as a signed integer, is 1 where the words are equal
    and 0 where they differ. -/
theorem onehot_entry (a b : BitVec 32) :
    FloatOps.sitofp (F := Ideal) .f32 ((IntOp.cmpi .eq a b).setWidth 32) = if a = b then (1 : EReal) else 0 := by
  show (((((IntOp.cmpi .eq a b).setWidth 32).toInt : ℤ) : ℝ) : EReal) = _
  by_cases h : a = b
  · rw [if_pos h, StableHlo.Predicate.cmpi_eq_iff.mpr h]
    have : ((1#1 : BitVec 1).setWidth 32).toInt = 1 := by decide
    rw [this]; simp
  · rw [if_neg h]
    have h0 : IntOp.cmpi .eq a b = 0#1 := by
      rcases BitVec.eq_zero_or_eq_one (IntOp.cmpi .eq a b) with h' | h'
      · exact h'
      · exact absurd (StableHlo.Predicate.cmpi_eq_iff.mp h') h
    rw [h0]
    have : ((0#1 : BitVec 1).setWidth 32).toInt = 0 := by decide
    rw [this]; simp

/-- One tile's selection: the sum over the tile's `n` node ids `s + k` of (1 if `u` is that id, else 0) times the
    table's row at that id is the row `u` when `u` is in the tile, and 0 when it is not. -/
theorem sum_onehot (u s n : ℕ) (g : ℕ → EReal) :
    ∑ k : Fin n, (if u = s + k.val then (1 : EReal) else 0) * g (s + k.val)
      = if s ≤ u ∧ u < s + n then g u else 0 := by
  by_cases h : s ≤ u ∧ u < s + n
  · rw [if_pos h]
    rw [Finset.sum_eq_single (⟨u - s, by omega⟩ : Fin n)]
    · have e : s + (u - s) = u := by omega
      simp only [e, if_true, one_mul]
    · intro k _ hk
      have : ¬ u = s + k.val := fun hu => hk (Fin.ext (by simp only; omega))
      rw [if_neg this, zero_mul]
    · intro hm; exact absurd (Finset.mem_univ _) hm
  · rw [if_neg h]
    refine Finset.sum_eq_zero fun k _ => ?_
    have : ¬ u = s + k.val := fun hu => h ⟨by omega, by have := k.isLt; omega⟩
    rw [if_neg this, zero_mul]

/-- The running total after `j` tiles of width `w`: the row `u` once its tile has been passed, 0 before. -/
def accAfter (w j u : ℕ) (g : ℕ → EReal) : EReal := if u < w * j then g u else 0

theorem accAfter_zero (w u : ℕ) (g : ℕ → EReal) : accAfter w 0 u g = 0 := by
  unfold accAfter; rw [if_neg (by omega)]

/-- Adding tile `j`'s contribution to the total after `j` tiles gives the total after `j + 1`. -/
theorem acc_step (w j u : ℕ) (g : ℕ → EReal) :
    accAfter w j u g + (if w * j ≤ u ∧ u < w * j + w then g u else 0) = accAfter w (j + 1) u g := by
  unfold accAfter
  have e : w * (j + 1) = w * j + w := by ring
  rw [e]
  by_cases h1 : u < w * j
  · rw [if_pos h1, if_neg (by omega), if_pos (by omega), add_zero]
  · rw [if_neg h1, zero_add]
    by_cases h2 : u < w * j + w
    · rw [if_pos ⟨by omega, h2⟩, if_pos h2]
    · rw [if_neg (fun h => h2 h.2), if_neg h2]

end Cert.GatherDot

end
-- ==== Proof.BodyIdeal.lean ====
/-
  The kernel body over the extended reals, entry by entry.

  Trip `k`'s payload at row `r`, feature `q` is the accumulator it finds there plus the sum over the 2048 node ids
  `2048 k + c` of tile `k` of (1 if the row's index word is that node id, else 0) times the table's entry at that node id
  (the matrix product with the 0/1 selection matrix; a change of float format is the identity here), that is, plus
  the table's row named by the index word when the word lies in tile `k` and plus 0 otherwise (`pay2_apply`). So after
  all five trips the accumulator's row `r` is the table's row named by the index word of row `r`, for a word below
  10240 (`acc_final`). The output entry of row `p` is the sum over the features of the product of accumulator rows
  `p` and `1024 + p` (`pay3_apply`): the inner product of the two table rows the two index words name (`out_apply`).
-/
import proofs.«428832_j40724879901345_3_alg».proof.Proof.Body
import proofs.«428832_j40724879901345_3_alg».proof.Proof.OneHot
import proofs.«428832_j40724879901345_3_alg».proof.Proof.LibKeepdims
import Idealize.ShloMosaic.PureOps.Ideal.Laws
import Idealize.ShloMosaic.Lib.ValueLayout

set_option maxRecDepth 16384

noncomputable section

open scoped BigOperators

namespace Cert.KernelIdeal.BodyIdeal

open Cert.KernelIdeal Cert.KernelIdeal.Gen Cert.KernelIdeal.Body Idealize.ShloMosaic Idealize.ShloMosaic.TcCoe Idealize.SL.Sem
open Idealize.ShloMosaic.ValueIdx Cert.GatherDot

/-- The loop makes five trips. -/
theorem trips_eq : k0_t1_loop.trips = 5 := by decide

/-- Feature `q` of the table as a function of the row NUMBER (0 beyond the table's 10240 rows). -/
def tbl (hb : Vec Ideal S10240x128 .bf16) (q : Fin 128) (n : ℕ) : EReal :=
  if h : n < 10240 then hb (ix2 ⟨n, h⟩ q) else 0

/-! ## The matrix product's operand indices -/

theorem lhs_0 (j : S2048x128.Idx) (k : dot_S2048x2048_S2048x128_S2048x128_1_0_0_1_n_n.contr.Idx) :
    (dot_S2048x2048_S2048x128_S2048x128_1_0_0_1_n_n.lhsIdx j k 0 : ℕ) = j 0 := by
  simp [DotDims.lhsIdx, dot_S2048x2048_S2048x128_S2048x128_1_0_0_1_n_n]; rfl
theorem lhs_1 (j : S2048x128.Idx) (k : dot_S2048x2048_S2048x128_S2048x128_1_0_0_1_n_n.contr.Idx) :
    (dot_S2048x2048_S2048x128_S2048x128_1_0_0_1_n_n.lhsIdx j k 1 : ℕ) = k ⟨0, by decide⟩ := by
  simp [DotDims.lhsIdx, dot_S2048x2048_S2048x128_S2048x128_1_0_0_1_n_n]; rfl
theorem rhs_0 (j : S2048x128.Idx) (k : dot_S2048x2048_S2048x128_S2048x128_1_0_0_1_n_n.contr.Idx) :
    (dot_S2048x2048_S2048x128_S2048x128_1_0_0_1_n_n.rhsIdx j k 0 : ℕ) = k ⟨0, by decide⟩ := by
  simp [DotDims.rhsIdx, dot_S2048x2048_S2048x128_S2048x128_1_0_0_1_n_n]; rfl
theorem rhs_1 (j : S2048x128.Idx) (k : dot_S2048x2048_S2048x128_S2048x128_1_0_0_1_n_n.contr.Idx) :
    (dot_S2048x2048_S2048x128_S2048x128_1_0_0_1_n_n.rhsIdx j k 1 : ℕ) = j 1 := by
  simp [DotDims.rhsIdx, dot_S2048x2048_S2048x128_S2048x128_1_0_0_1_n_n]; rfl

/-- The contraction's positions are the 2048 columns of the selection matrix. -/
abbrev cE : dot_S2048x2048_S2048x128_S2048x128_1_0_0_1_n_n.contr.Idx ≃ Fin 2048 :=
  contrEquiv1 dot_S2048x2048_S2048x128_S2048x128_1_0_0_1_n_n 2048 rfl rfl

/-- At output entry (r, q) and column `c` the product reads the selection matrix at (r, c) … -/
theorem lhsIdx_eq (r : Fin 2048) (q : Fin 128) (c : Fin 2048) :
    dot_S2048x2048_S2048x128_S2048x128_1_0_0_1_n_n.lhsIdx (ix2 r q) (cE.symm c) = ix2 r c := by
  funext a; apply Fin.ext
  match a with
  | ⟨0, _⟩ => exact lhs_0 _ _
  | ⟨1, _⟩ => exact (lhs_1 _ _).trans (contrEquiv1_symm_val _ 2048 rfl rfl c)

/-- … and the table tile at (c, q). -/
theorem rhsIdx_eq (r : Fin 2048) (q : Fin 128) (c : Fin 2048) :
    dot_S2048x2048_S2048x128_S2048x128_1_0_0_1_n_n.rhsIdx (ix2 r q) (cE.symm c) = ix2 c q := by
  funext a; apply Fin.ext
  match a with
  | ⟨0, _⟩ => exact (rhs_0 _ _).trans (contrEquiv1_symm_val _ 2048 rfl rfl c)
  | ⟨1, _⟩ => exact rhs_1 _ _

/-! ## Node ids and table tiles -/

/-- The word of node id `c` of tile `k` is the number `2048 k + c`. -/
theorem node_word (k : Fin k0_t1_loop.trips) (c : Fin 2048) :
    (IntOp.addi (Scalar.muli (Scf.iv 0#32 1#32 k) 2048#32) (BitVec.ofNat 32 c.val)).toNat = 2048 * k.val + c.val := by
  have h : (Scalar.muli (Scf.iv 0#32 1#32 k) 2048#32).toNat = 2048 * k.val := congrFun (k0_off1_eq k) 0
  have hk : k.val < 5 := trips_eq ▸ k.isLt
  have hc := c.isLt
  show ((Scalar.muli (Scf.iv 0#32 1#32 k) 2048#32) + BitVec.ofNat 32 c.val).toNat = _
  rw [BitVec.toNat_add, BitVec.toNat_ofNat, h]
  omega

/-- Row `c` of tile `k` of the table is the table's row `2048 k + c`. -/
theorem tile_apply (hb : Vec Ideal S10240x128 .bf16) (k : Fin k0_t1_loop.trips) (c : Fin 2048) (q : Fin 128) :
    View.ld hb (rTile k) (ix2 c q) = tbl hb q (2048 * k.val + c.val) := by
  have hk : k.val < 5 := trips_eq ▸ k.isLt
  have hc := c.isLt
  have hn : 2048 * k.val + c.val < 10240 := by omega
  unfold tbl
  rw [dif_pos hn]
  show hb ((rTile k).idx (ix2 c q)) = _
  congr 1
  funext a; apply Fin.ext
  match a with
  | ⟨0, _⟩ =>
    show ((rTile k).idx (ix2 c q) 0 : ℕ) = 2048 * k.val + c.val
    rw [LoadRect.idx_apply]; simp [Rect.unit, k0_off1_eq k]
  | ⟨1, _⟩ =>
    show ((rTile k).idx (ix2 c q) 1 : ℕ) = q.val
    rw [LoadRect.idx_apply]; simp [Rect.unit, k0_off1_eq k]

/-! ## One trip -/

/-- TRIP `k` AT (r, q), for ANY loaded tile `v19` whose row `c` is the table's row `2048 k + c` (`g` reads the table by row
    number): the accumulator found plus the table's row the index word of row `r` names, if that word is in tile `k`. -/
theorem pay2_apply_of (v4 : Vec Ideal S2048x1 .i32) (k : Fin k0_t1_loop.trips) (v19 : FVec Ideal S2048x128 .bf16)
    (A : FVec Ideal S2048x128 .f32) (r : Fin 2048) (q : Fin 128) (g : ℕ → EReal)
    (hv : ∀ c : Fin 2048, v19 (ix2 c q) = g (2048 * k.val + c.val)) :
    k0_pay2 (F := Ideal) v4 k v19 A (ix2 r q)
      = A (ix2 r q) + (if 2048 * k.val ≤ (v4 (ix2 r 0)).toNat ∧ (v4 (ix2 r 0)).toNat < 2048 * k.val + 2048
          then g (v4 (ix2 r 0)).toNat else 0) := by
  unfold k0_pay2
  dsimp only
  simp only [shapeCast_self]
  refine congrArg (A (ix2 r q) + ·) ?_
  refine (Ideal.matmul_constant_zero_apply (φ₁ := .bf16) (φ₂ := .bf16) dot_S2048x2048_S2048x128_S2048x128_1_0_0_1_n_n none _ v19
    (ix2 r q)).trans ?_
  rw [← Equiv.sum_comp cE.symm, ← sum_onehot (v4 (ix2 r 0)).toNat (2048 * k.val) 2048 g]
  refine Finset.sum_congr rfl fun c _ => ?_
  rw [lhsIdx_eq r q c, rhsIdx_eq r q c, hv c]
  refine congrArg (· * g (2048 * k.val + c.val)) ?_
  show FloatOps.sitofp (F := Ideal) .f32 ((IntOp.cmpi .eq
      (broadcastTo S2048x2048 v4 broadcasts_S2048x1_S2048x2048 (ix2 r c))
      (broadcastTo S2048x2048 (addi (broadcast S1x2048 (Scalar.muli (Scf.iv 0#32 1#32 k) 2048#32))
        (iota Kind.tc S1x2048 32 [1] iota_S1x2048_d1_w32)) broadcasts_S1x2048_S2048x2048 (ix2 r c))).setWidth 32) = _
  rw [broadcastTo_a1_ab_apply, broadcastTo_1b_ab_apply, onehot_entry]
  refine if_congr ?_ rfl rfl
  rw [← BitVec.toNat_inj]
  have e : (addi (broadcast S1x2048 (Scalar.muli (Scf.iv 0#32 1#32 k) 2048#32))
      (iota Kind.tc S1x2048 32 [1] iota_S1x2048_d1_w32) (ix2 (0 : Fin 1) c)).toNat = 2048 * k.val + c.val := by
    show (IntOp.addi (Scalar.muli (Scf.iv 0#32 1#32 k) 2048#32)
      (iota Kind.tc S1x2048 32 [1] iota_S1x2048_d1_w32 (ix2 (0 : Fin 1) c))).toNat = _
    rw [iota_single_apply]
    exact node_word k c
  rw [e]

/-- Trip `k` on tile `k` of the table `hb`. -/
theorem pay2_apply (v4 : Vec Ideal S2048x1 .i32) (k : Fin k0_t1_loop.trips) (hb : Vec Ideal S10240x128 .bf16)
    (A : Vec Ideal S2048x128 .f32) (r : Fin 2048) (q : Fin 128) :
    k0_pay2 (F := Ideal) v4 k (View.ld hb (rTile k)) A (ix2 r q)
      = A (ix2 r q) + (if 2048 * k.val ≤ (v4 (ix2 r 0)).toNat ∧ (v4 (ix2 r 0)).toNat < 2048 * k.val + 2048
          then tbl hb q (v4 (ix2 r 0)).toNat else 0) :=
  pay2_apply_of v4 k (View.ld hb (rTile k)) A r q (tbl hb q) (fun c => tile_apply hb k c q)

/-! ## The accumulator -/

/-- THE ACCUMULATOR AFTER `k` TRIPS at (r, q): the table's row the index word of row `r` names once its tile is passed. -/
theorem accK_apply (v4 : Vec Ideal S2048x1 .i32) (hb : Vec Ideal S10240x128 .bf16) (k : ℕ) (hk : k ≤ k0_t1_loop.trips)
    (r : Fin 2048) (q : Fin 128) :
    accK (F := Ideal) v4 hb k (ix2 r q) = accAfter 2048 k (v4 (ix2 r 0)).toNat (tbl hb q) := by
  induction k with
  | zero =>
    rw [accAfter_zero]
    show shapeCast S2048x128 (broadcast S2048x128 (Scalar.ofBits (F := Ideal) .f32 0x00000000#32))
      shapeCasts_S2048x128_S2048x128 (ix2 r q) = 0
    rw [shapeCast_self]
    exact Ideal.ofBits_zero_f32
  | succ k ih =>
    rw [show k + 1 = (⟨k, hk⟩ : Fin k0_t1_loop.trips).val + 1 from rfl, accK_succ, pay2_apply, ih (Nat.le_of_succ_le hk)]
    exact acc_step 2048 k _ _

/-- After the last trip, for an index word below 10240: the table's row of that number. -/
theorem acc_final (v4 : Vec Ideal S2048x1 .i32) (hb : Vec Ideal S10240x128 .bf16) (r : Fin 2048) (q : Fin 128)
    (h : (v4 (ix2 r 0)).toNat < 10240) :
    accK (F := Ideal) v4 hb k0_t1_loop.trips (ix2 r q) = hb (ix2 ⟨(v4 (ix2 r 0)).toNat, h⟩ q) := by
  rw [accK_apply v4 hb _ le_rfl, trips_eq]
  unfold accAfter tbl
  rw [if_pos (by omega), dif_pos h]

/-! ## The output -/

/-- THE OUTPUT PAYLOAD at row `p`: the sum over the features of the product of its two operands' rows `p`. -/
theorem pay3_apply (v7 v8 : Vec Ideal S1024x128 .f32) (p : Fin 1024) (u : Fin 1) :
    k0_pay3 (F := Ideal) v7 v8 (ix2 p u) = ∑ q : Fin 128, v7 (ix2 p q) * v8 (ix2 p q) := by
  unfold k0_pay3
  dsimp only
  refine (shapeCast_a_a1_apply _ shapeCasts_S1024_S1024x1 p u).trans ?_
  refine (Ideal.multiReduction_add_single (mulf v7 v8) 0#32 reduces_S1024x128_S1024 _ _ (ix1 p)).trans ?_
  refine Finset.sum_congr rfl fun q _ => ?_
  have e : reduces_S1024x128_S1024.lift (ix1 p) q = ix2 p q :=
    funext fun a => Fin.ext (by match a with | ⟨0, _⟩ => rfl | ⟨1, _⟩ => rfl)
  rw [e]
  rfl

/-- Row `p` of the accumulator's upper half is its row `p`; of its lower half, its row `1024 + p`. -/
theorem top_apply (A : Vec Ideal S2048x128 .f32) (p : Fin 1024) (q : Fin 128) :
    View.ld A rTop (ix2 p q) = A (ix2 ⟨p.val, by omega⟩ q) := by
  show A (rTop.idx (ix2 p q)) = _
  congr 1
  funext a; apply Fin.ext
  match a with
  | ⟨0, _⟩ => show (rTop.idx (ix2 p q) 0 : ℕ) = p.val; rw [LoadRect.idx_apply]; simp [Rect.unit]
  | ⟨1, _⟩ => show (rTop.idx (ix2 p q) 1 : ℕ) = q.val; rw [LoadRect.idx_apply]; simp [Rect.unit]

theorem bot_apply (A : Vec Ideal S2048x128 .f32) (p : Fin 1024) (q : Fin 128) :
    View.ld A rBot (ix2 p q) = A (ix2 ⟨1024 + p.val, by omega⟩ q) := by
  show A (rBot.idx (ix2 p q)) = _
  congr 1
  funext a; apply Fin.ext
  match a with
  | ⟨0, _⟩ => show (rBot.idx (ix2 p q) 0 : ℕ) = 1024 + p.val; rw [LoadRect.idx_apply]; simp [Rect.unit]
  | ⟨1, _⟩ => show (rBot.idx (ix2 p q) 1 : ℕ) = q.val; rw [LoadRect.idx_apply]; simp [Rect.unit]

/-- THE OUTPUT BLOCK at row `p`: the inner product of the table rows named by index words `p` and `1024 + p` of the
    block's index column, for words below 10240. -/
theorem out_apply (x0 : Vec Ideal S2048x1 .i32) (x1 : Vec Ideal S10240x128 .bf16) (p : Fin 1024) (u : Fin 1)
    (hs : (x0 (ix2 (⟨p.val, by omega⟩ : Fin 2048) 0)).toNat < 10240)
    (hd : (x0 (ix2 (⟨1024 + p.val, by omega⟩ : Fin 2048) 0)).toNat < 10240) :
    k0_pay3 (F := Ideal) (View.ld (accK x0 x1 k0_t1_loop.trips) rTop) (View.ld (accK x0 x1 k0_t1_loop.trips) rBot) (ix2 p u)
      = ∑ q : Fin 128, x1 (ix2 ⟨(x0 (ix2 (⟨p.val, by omega⟩ : Fin 2048) 0)).toNat, hs⟩ q)
          * x1 (ix2 ⟨(x0 (ix2 (⟨1024 + p.val, by omega⟩ : Fin 2048) 0)).toNat, hd⟩ q) := by
  rw [pay3_apply]
  refine Finset.sum_congr rfl fun q _ => ?_
  rw [top_apply, bot_apply, acc_final x0 x1 _ q hs, acc_final x0 x1 _ q hd]

end Cert.KernelIdeal.BodyIdeal

end
-- ==== Proof.Spec.lean ====
/-
  What both programs compute, as one function of the three argument arrays: for edge `e`, the inner product over the
  128 features of the table's row named by `src e` with the row named by `dst e`,
      score e = ∑ q, h[src e, q] * h[dst e, q]
  over the extended reals. A start word names a row by its signed value clamped into the rows `0 … 9999` (`rowOf`);
  for a word in range (`InRange`: signed value in `[0, 10000)`) that is the row with the word's own number.
-/
import Idealize.ShloMosaic.PureOps.Ideal
import Idealize.ShloMosaic.Lib.ValueIdx
import Mathlib.Algebra.BigOperators.Group.Finset.Basic

noncomputable section

open scoped BigOperators

namespace Cert.GatherDot

open Idealize.ShloMosaic Idealize.ShloMosaic.ValueIdx

/-- The row of the 10000-row table a start word names: its signed value, clamped into the rows. -/
def rowOf (s : BitVec 32) : Fin 10000 := ⟨min s.toInt.toNat 9999, by omega⟩

/-- A word in range names the row with its own (unsigned) number. -/
theorem rowOf_val {s : BitVec 32} (h0 : 0 ≤ s.toInt) (h1 : s.toInt < 10000) : (rowOf s).val = s.toNat := by
  unfold rowOf
  have hN := s.isLt
  rw [BitVec.toInt_eq_toNat_cond] at h0 h1
  simp only [BitVec.toInt_eq_toNat_cond]
  by_cases hlt : 2 * s.toNat < 2 ^ 32
  · rw [if_pos hlt] at h0 h1 ⊢; omega
  · rw [if_neg hlt] at h0 h1; omega

/-- A word in range is below 10000 as a number. -/
theorem toNat_lt {s : BitVec 32} (h0 : 0 ≤ s.toInt) (h1 : s.toInt < 10000) : s.toNat < 10000 := by
  rw [← rowOf_val h0 h1]; exact (rowOf s).isLt

/-- Every entry of an index array is a row number of the table. -/
def InRange (w : (⟨1, ![640000]⟩ : Shape).Idx → BitVec 32) : Prop :=
  ∀ e : Fin 640000, 0 ≤ (w (ix1 e)).toInt ∧ (w (ix1 e)).toInt < 10000

/-- The per-edge inner product of the source row with the destination row. -/
def score (h : (⟨2, ![10000, 128]⟩ : Shape).Idx → EReal) (src dst : (⟨1, ![640000]⟩ : Shape).Idx → BitVec 32) :
    (⟨2, ![640000, 1]⟩ : Shape).Idx → EReal :=
  fun i => ∑ q : Fin 128,
    h (ix2 (rowOf (src (ix1 ⟨(i 0).val, (i 0).isLt⟩))) q) * h (ix2 (rowOf (dst (ix1 ⟨(i 0).val, (i 0).isLt⟩))) q)

end Cert.GatherDot

end
-- ==== Proof.KernelValue.lean ====
/-
  The result array after the kernel's run is `score` of the three argument arrays, when both index arrays are in range.

  Point `t` writes back rows `1024 t … 1024 t + 1023` of the result. Row `p` of what it writes is the inner product of the
  table rows named by index words `p` and `1024 + p` of its column block, which are `src[1024 t + p]` and
  `dst[1024 t + p]`; both are below 10000, so the rows are rows of the unpadded table: the entry is `score` at row
  `1024 t + p` (`flushed_eq`). The 625 blocks tile the result (`cover`), so the array ends holding `score` (`final`).
-/
import proofs.«428832_j40724879901345_3_alg».proof.Proof.Blocks
import proofs.«428832_j40724879901345_3_alg».proof.Proof.BodyIdeal
import proofs.«428832_j40724879901345_3_alg».proof.Proof.Spec

set_option maxRecDepth 16384

noncomputable section

open scoped BigOperators

namespace Cert.KernelIdeal.Final

open Cert.KernelIdeal Cert.KernelIdeal.Gen Cert.KernelIdeal.Body Cert.KernelIdeal.BodyIdeal Cert.KernelIdeal.Blocks
open Idealize.ShloMosaic Idealize.ShloMosaic.TcCoe Idealize.SL.Sem Idealize.ShloMosaic.ValueIdx Cert.GatherDot
open Idealize.ShloMosaic.Pipeline (Dat)

/-- One factor of the inner product: the table block's row named by an index word `w`, equal to a word `w'` in
    range, is the table argument's row `rowOf w'`. -/
theorem factor (x1 : Vec Ideal S10240x128 .bf16) (h : S10000x128.Idx → EReal)
    (hx : ∀ (n : Fin 10240) (hn : n.val < 10000) (q : Fin 128), x1 (ix2 n q) = h (ix2 ⟨n.val, hn⟩ q))
    (w w' : BitVec 32) (e : w = w') (h0 : 0 ≤ w'.toInt) (h1 : w'.toInt < 10000) (hlt : w.toNat < 10240) (q : Fin 128) :
    x1 (ix2 ⟨w.toNat, hlt⟩ q) = h (ix2 (rowOf w') q) := by
  subst e
  have hv := rowOf_val h0 h1
  have hn : w.toNat < 10000 := toNat_lt h0 h1
  rw [hx ⟨w.toNat, hlt⟩ hn q]
  exact congrArg (fun n : Fin 10000 => h (ix2 n q)) (Fin.ext hv.symm)

variable (m : (ℓ : Loc nD τ sig) → Buf (Elt Ideal) ℓ)

/-- WHAT POINT `t` WRITES BACK is its block of `score` of the argument arrays. -/
theorem flushed_eq (c : Dev nD) (hs : InRange (m ((c : Thread nD τ).loc main_arg1)))
    (hd : InRange (m ((c : Thread nD τ).loc main_arg2))) (t : Fin cfg0.N) :
    (dats m 0 c).flushed 2 t
      = ((cfg0.win 2).blk t).view.read (Elt Ideal)
          (score (m ((c : Thread nD τ).loc main_arg0)) (m ((c : Thread nD τ).loc main_arg1)) (m ((c : Thread nD τ).loc main_arg2))) := by
  rw [Cert.KernelIdeal.Value.flushed2_A, out_eq]
  funext j
  obtain ⟨p, u, rfl⟩ : ∃ (p : Fin 1024) (u : Fin 1), (j : S1024x1.Idx) = ix2 p u := ⟨j 0, j 1, eq_ix2 j⟩
  have ht := t_lt t
  have hp := p.isLt
  -- the two index words of row `p`
  have es : xblk m c t (ix2 (⟨p.val, by omega⟩ : Fin 2048) (0 : Fin 1))
      = m ((c : Thread nD τ).loc main_arg1) (ix1 ⟨1024 * t.val + p.val, by omega⟩) :=
    (xblk_apply m c t _).trans (column_src _ _ ⟨t.val, ht⟩ p)
  have ed : xblk m c t (ix2 (⟨1024 + p.val, by omega⟩ : Fin 2048) (0 : Fin 1))
      = m ((c : Thread nD τ).loc main_arg2) (ix1 ⟨1024 * t.val + p.val, by omega⟩) :=
    (xblk_apply m c t _).trans (column_dst _ _ ⟨t.val, ht⟩ p)
  obtain ⟨s0, s1⟩ := hs ⟨1024 * t.val + p.val, by omega⟩
  obtain ⟨d0, d1⟩ := hd ⟨1024 * t.val + p.val, by omega⟩
  have hls : (xblk m c t (ix2 (⟨p.val, by omega⟩ : Fin 2048) (0 : Fin 1))).toNat < 10240 := by
    rw [es]; have := toNat_lt s0 s1; omega
  have hld : (xblk m c t (ix2 (⟨1024 + p.val, by omega⟩ : Fin 2048) (0 : Fin 1))).toNat < 10240 := by
    rw [ed]; have := toNat_lt d0 d1; omega
  show k0_pay3 (F := Ideal) (View.ld (accK (xblk m c t) (hblk m c t) k0_t1_loop.trips) rTop)
      (View.ld (accK (xblk m c t) (hblk m c t) k0_t1_loop.trips) rBot) (ix2 p u)
    = score (m ((c : Thread nD τ).loc main_arg0)) (m ((c : Thread nD τ).loc main_arg1)) (m ((c : Thread nD τ).loc main_arg2))
        (((cfg0.win 2).blk t).view.emb (ix2 p u))
  refine (out_apply (xblk m c t) (hblk m c t) p u hls hld).trans ?_
  have hemb : ((cfg0.win 2).blk t).view.emb (ix2 p u)
      = (ix2 (⟨1024 * t.val + p.val, by omega⟩ : Fin 640000) u : S640000x1.Idx) := by
    obtain ⟨-, -, -, -, e4, e5⟩ := idx_pts t
    funext a; apply Fin.ext
    match a with
    | ⟨0, _⟩ => show win0_2.index t (0 : Fin 2) * 1024 + 1 * p.val = 1024 * t.val + p.val; omega
    | ⟨1, _⟩ => show win0_2.index t (1 : Fin 2) * 1 + 1 * u.val = u.val; omega
  rw [hemb]
  unfold score
  refine Finset.sum_congr rfl fun q _ => ?_
  have hx := fun (n : Fin 10240) (hn : n.val < 10000) (q : Fin 128) => hblk_apply m c t n hn q
  rw [factor (hblk m c t) (m ((c : Thread nD τ).loc main_arg0)) hx _ _ es s0 s1 hls q,
    factor (hblk m c t) (m ((c : Thread nD τ).loc main_arg0)) hx _ _ ed d0 d1 hld q]

/-- An index of the result is in point `t`'s block iff each coordinate is in the block's range on its axis. -/
theorem mem_blk (t : Fin cfg0.N) (i : S640000x1.Idx) :
    i ∈ ((cfg0.win 2).blk t).view.set ↔ ∀ a : Fin 2, win0_2.index t a * S1024x1.size a ≤ (i a).val
      ∧ (i a).val < win0_2.index t a * S1024x1.size a + S1024x1.size a := by
  show i ∈ ((View.whole main_v6).slice (win0_2.rect t)).set ↔ _
  rw [View.set_slice_whole, Rect.mem_set_unit]
  exact Iff.rfl

/-- Every row of the result is in the block of the point `row / 1024`. -/
theorem cover (i : S640000x1.Idx) :
    ∃ t : Fin cfg0.N, (cfg0.win 2).flush t = true ∧ i ∈ ((cfg0.win 2).blk t).view.set := by
  have hi0 : (i 0).val < 640000 := (i 0).isLt
  have hi1 : (i 1).val < 1 := (i 1).isLt
  have hN : cfg0.N = 625 := N_0
  refine ⟨⟨(i 0).val / 1024, by rw [hN]; omega⟩, flush0_2 _, ?_⟩
  rw [mem_blk]
  obtain ⟨-, -, -, -, e4, e5⟩ := idx_pts ⟨(i 0).val / 1024, by rw [hN]; omega⟩
  intro a
  match a with
  | ⟨0, _⟩ =>
    show win0_2.index ⟨(i 0).val / 1024, _⟩ (0 : Fin 2) * 1024 ≤ (i 0).val
      ∧ (i 0).val < win0_2.index ⟨(i 0).val / 1024, _⟩ (0 : Fin 2) * 1024 + 1024
    rw [e4]; show (i 0).val / 1024 * 1024 ≤ (i 0).val ∧ (i 0).val < (i 0).val / 1024 * 1024 + 1024; omega
  | ⟨1, _⟩ =>
    show win0_2.index ⟨(i 0).val / 1024, _⟩ (1 : Fin 2) * 1 ≤ (i 1).val
      ∧ (i 1).val < win0_2.index ⟨(i 0).val / 1024, _⟩ (1 : Fin 2) * 1 + 1
    rw [e5]; omega

/-- THE RESULT ARRAY after the run is `score` of the argument arrays. -/
theorem final (c : Dev nD) (hs : InRange (m ((c : Thread nD τ).loc main_arg1)))
    (hd : InRange (m ((c : Thread nD τ).loc main_arg2))) :
    (dats m 0 c).arrAt 2 cfg0.N
      = score (m ((c : Thread nD τ).loc main_arg0)) (m ((c : Thread nD τ).loc main_arg1)) (m ((c : Thread nD τ).loc main_arg2)) :=
  (dats m 0 c).arrAt_eq_of_cover 2 _ (fun t _ => flushed_eq m c hs hd t) cover

end Cert.KernelIdeal.Final

end
-- ==== Proof.LibRowGatherScatter.lean ====
/-
  GENERAL LEMMAS: two indexed host operations, the broadcasts that feed them, and two small companions, each READ AT AN
  INDEX over the extended reals, for ARBITRARY extents N (table rows), E (edges) and D (features).

  * the row gather (`x[idx]` of an [N, D] table at a column [E, 1] of start words: `rowGather`, `rowGather_apply`):
    result (e, q) is the table at (the start word of edge e read signed and clamped into the rows [0, N − 1], q);
  * the accumulating row scatter (`segment_sum` / `.at[idx].add` of [E, D] updates into an [N, D] operand at a column
    [E, 1] of start words: `rowScatter`, `rowScatter_resultIdx_iff`, `rowScatterAdd_apply`): update (e, q') lands at
    (the start word of edge e read signed and NOT clamped, q'), or nowhere when that is no row; so result (d, q) is the
    operand's entry plus the sum over the edges whose word, read signed, is d of update (e, q);
  * a scalar, a vector as a column, a column over the features, a vector as a row and a row over the rows, each
    broadcast read at an index (`bcastScalar_apply` … `bcastRows_apply`);
  * jnp's index normalisation as a select (`wrap_select`: a negative word counts from the end) and the maximum with a
    broadcast zero (`reluOps_apply`).
  Nothing here mentions a program: the dimension-number records are built from a well-formedness fact the caller has.
-/
import Idealize.ShloMosaic.PureOps.Ideal
import Idealize.ShloMosaic.PureOps.Contract
import Idealize.ShloMosaic.Lib.ValueIdx
import Idealize.ShloMosaic.Lib.Affine
import Idealize.ShloMosaic.Lib.Pipeline.Value
import Idealize.ShloMosaic.Lib.StackMember
import Mathlib.Algebra.BigOperators.Group.Finset.Basic
import Mathlib.Algebra.BigOperators.Fin

noncomputable section

open scoped BigOperators

namespace Cert.ReferenceIdeal.Hand

open Idealize.ShloMosaic Idealize.ShloMosaic.ValueIdx

/-! ## The row gather -/

section Gather
variable {α : Type}

/-- The dimension numbers of a gather of whole rows of an [N, D] table at a column [E, 1] of start words:
    the row axis collapsed and indexed, the feature axis an offset axis. -/
abbrev rowGather (N E D : Nat)
    (wf : GatherDims.WF ⟨2, ![N, D]⟩ ⟨2, ![E, 1]⟩ ⟨2, ![E, D]⟩ [1] [0] [] [0] [] 1 ![1, D]) :
    GatherDims ⟨2, ![N, D]⟩ ⟨2, ![E, 1]⟩ ⟨2, ![E, D]⟩ where
  offsetDims := [1]
  collapsedSliceDims := [0]
  operandBatchingDims := []
  startIndicesBatchingDims := []
  startIndexMap := [0]
  indexVectorDim := 1
  sliceSizes := ![1, D]
  wf := wf

/-- The row gather at (e, q): the table at the clamped signed start word of e, feature q. -/
theorem rowGather_apply {N E D w : Nat} (hN : 0 < N)
    (wf : GatherDims.WF ⟨2, ![N, D]⟩ ⟨2, ![E, 1]⟩ ⟨2, ![E, D]⟩ [1] [0] [] [0] [] 1 ![1, D])
    (x : (⟨2, ![N, D]⟩ : Shape).Idx → α) (idx : IVec ⟨2, ![E, 1]⟩ w) (e : Fin E) (q : Fin D) :
    Host.gather (rowGather N E D wf) x idx (ix2 e q)
      = x (ix2 ⟨min (idx (ix2 e 0)).toInt.toNat (N - 1), by omega⟩ q) := by
  unfold Host.gather
  congr 1
  funext a
  refine Fin.ext ?_
  match a with
  | ⟨0, _⟩ =>
    show (rowGather N E D wf).start (ix2 e q) idx 0 + (rowGather N E D wf).batchCoord (ix2 e q) 0
      + (rowGather N E D wf).offCoord (ix2 e q) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGather N E D wf).startIndexMap from List.mem_singleton.mpr rfl)]
    have hsi : (rowGather N E D wf).siIdx (ix2 e q) ⟨List.idxOf (0 : Fin 2) (rowGather N E D wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    show (rowGather N E D wf).start (ix2 e q) idx 1 + (rowGather N E D wf).batchCoord (ix2 e q) 1
      + (rowGather N E D wf).offCoord (ix2 e q) 1 = q.val
    have h1 : (1 : Fin 2) ∉ (rowGather N E D wf).startIndexMap := by
      show (1 : Fin 2) ∉ [(0 : Fin 2)]
      decide
    rw [GatherDims.batchCoord_eq_zero _ _ _ List.not_mem_nil]
    unfold GatherDims.start
    rw [dif_neg h1]
    simp only [Nat.add_zero, Nat.zero_add]
    unfold GatherDims.offCoord
    rw [dif_pos ((GatherDims.mem_sKept _ _).mpr ⟨(show (1 : Fin 2) ∉ [(0 : Fin 2)] by decide), List.not_mem_nil⟩)]
    rfl

/-- The same with the start word of e named: the form a caller uses when the start words are themselves computed. -/
theorem rowGather_apply_of_eq {N E D w : Nat} (hN : 0 < N)
    (wf : GatherDims.WF ⟨2, ![N, D]⟩ ⟨2, ![E, 1]⟩ ⟨2, ![E, D]⟩ [1] [0] [] [0] [] 1 ![1, D])
    (x : (⟨2, ![N, D]⟩ : Shape).Idx → α) (idx : IVec ⟨2, ![E, 1]⟩ w) (e : Fin E) (q : Fin D) (s : BitVec w)
    (hs : idx (ix2 e 0) = s) :
    Host.gather (rowGather N E D wf) x idx (ix2 e q) = x (ix2 ⟨min s.toInt.toNat (N - 1), by omega⟩ q) := by
  subst hs
  exact rowGather_apply hN wf x idx e q

end Gather

/-! ## The accumulating row scatter -/

section Scatter

/-- The dimension numbers of a scatter of whole rows [E, D] into an [N, D] operand at a column [E, 1] of start
    words: the feature axis a window axis, the row axis inserted and indexed. -/
abbrev rowScatter (N E D : Nat) (wf : ScatterDims.WF ⟨2, ![N, D]⟩ ⟨2, ![E, 1]⟩ ⟨2, ![E, D]⟩ [1] [0] [0] 1) :
    ScatterDims ⟨2, ![N, D]⟩ ⟨2, ![E, 1]⟩ ⟨2, ![E, D]⟩ where
  updateWindowDims := [1]
  insertedWindowDims := [0]
  scatterDimsToOperandDims := [0]
  indexVectorDim := 1
  wf := wf

variable {N E D w : Nat} (wf : ScatterDims.WF ⟨2, ![N, D]⟩ ⟨2, ![E, 1]⟩ ⟨2, ![E, D]⟩ [1] [0] [0] 1)
  (idx : IVec ⟨2, ![E, 1]⟩ w)

/-- On the row axis the window of update (e, q') starts at the start word of e, read signed … -/
theorem rowScatter_start_zero (e : Fin E) (q' : Fin D) :
    (rowScatter N E D wf).start (ix2 e q') idx 0 = (idx (ix2 e 0)).toInt := by
  unfold ScatterDims.start
  rw [dif_pos (show (0 : Fin 2) ∈ (rowScatter N E D wf).scatterDimsToOperandDims from List.mem_singleton.mpr rfl)]
  have hsi : (rowScatter N E D wf).siIdx (ix2 e q') ⟨List.idxOf (0 : Fin 2) (rowScatter N E D wf).scatterDimsToOperandDims,
      List.idxOf_lt_length_iff.2 (List.mem_singleton.mpr rfl)⟩ = ix2 e 0 := by
    funext b; refine Fin.ext ?_
    match b with
    | ⟨0, _⟩ => rfl
    | ⟨1, _⟩ => rfl
  rw [hsi]

/-- … and on the feature axis at 0. -/
theorem rowScatter_start_one (e : Fin E) (q' : Fin D) :
    (rowScatter N E D wf).start (ix2 e q') idx 1 = 0 := by
  unfold ScatterDims.start
  rw [dif_neg (show (1 : Fin 2) ∉ [(0 : Fin 2)] by decide)]

/-- The window coordinate of update (e, q') is 0 on the row axis … -/
theorem rowScatter_window_zero (e : Fin E) (q' : Fin D) :
    (rowScatter N E D wf).window (ix2 e q') 0 = 0 := by
  unfold ScatterDims.window
  rw [dif_neg]
  show (0 : Fin 2) ∉ (List.finRange 2).filter (· ∉ [(0 : Fin 2)])
  decide

/-- … and q' on the feature axis. -/
theorem rowScatter_window_one (e : Fin E) (q' : Fin D) :
    (rowScatter N E D wf).window (ix2 e q') 1 = q'.val := by
  unfold ScatterDims.window
  have h1 : (1 : Fin 2) ∈ (rowScatter N E D wf).sKept := by
    show (1 : Fin 2) ∈ (List.finRange 2).filter (· ∉ [(0 : Fin 2)])
    decide
  rw [dif_pos h1]
  rfl

/-- Update (e, q') lands at (d, q) exactly when the start word of e, read signed, is d and q' = q. -/
theorem rowScatter_resultIdx_iff (e : Fin E) (q' : Fin D) (d : Fin N) (q : Fin D) :
    (rowScatter N E D wf).resultIdx? (ix2 e q') idx = some (ix2 d q)
      ↔ (idx (ix2 e 0)).toInt = (d.val : ℤ) ∧ q' = q := by
  unfold ScatterDims.resultIdx?
  split
  · next h =>
    rw [Option.some.injEq]
    have h0 := h 0
    have h1 := h 1
    rw [rowScatter_start_zero, rowScatter_window_zero] at h0
    constructor
    · intro hf
      have e0 := congrArg (fun f => (f 0).val) hf
      have e1 := congrArg (fun f => (f 1).val) hf
      simp only [rowScatter_start_zero, rowScatter_window_zero, rowScatter_start_one, rowScatter_window_one] at e0 e1
      refine ⟨?_, Fin.ext ?_⟩
      · have : ((ix2 d q : (⟨2, ![N, D]⟩ : Shape).Idx) 0).val = d.val := rfl
        omega
      · have : ((ix2 d q : (⟨2, ![N, D]⟩ : Shape).Idx) 1).val = q.val := rfl
        omega
    · rintro ⟨hd, rfl⟩
      funext a
      refine Fin.ext ?_
      match a with
      | ⟨0, _⟩ =>
        show ((rowScatter N E D wf).start (ix2 e q') idx 0 + ((rowScatter N E D wf).window (ix2 e q') 0 : ℕ)).toNat = d.val
        rw [rowScatter_start_zero, rowScatter_window_zero]
        omega
      | ⟨1, _⟩ =>
        show ((rowScatter N E D wf).start (ix2 e q') idx 1 + ((rowScatter N E D wf).window (ix2 e q') 1 : ℕ)).toNat = q'.val
        rw [rowScatter_start_one, rowScatter_window_one]
        omega
  · next h =>
    constructor
    · intro hf
      exact absurd hf (by simp)
    · rintro ⟨hd, rfl⟩
      exfalso
      apply h
      intro a
      match a with
      | ⟨0, _⟩ =>
        show 0 ≤ (rowScatter N E D wf).start (ix2 e q') idx 0 + ((rowScatter N E D wf).window (ix2 e q') 0 : ℕ)
          ∧ (rowScatter N E D wf).start (ix2 e q') idx 0 + ((rowScatter N E D wf).window (ix2 e q') 0 : ℕ) < (N : ℤ)
        rw [rowScatter_start_zero, rowScatter_window_zero]
        have := d.isLt
        omega
      | ⟨1, _⟩ =>
        show 0 ≤ (rowScatter N E D wf).start (ix2 e q') idx 1 + ((rowScatter N E D wf).window (ix2 e q') 1 : ℕ)
          ∧ (rowScatter N E D wf).start (ix2 e q') idx 1 + ((rowScatter N E D wf).window (ix2 e q') 1 : ℕ) < (D : ℤ)
        rw [rowScatter_start_one, rowScatter_window_one]
        have := q'.isLt
        omega

/-- THE ACCUMULATING ROW SCATTER AT (d, q): the operand's entry plus the sum, over the edges whose start word read
    signed is d, of update (e, q). The sum over the rank-2 update indices that land at (d, q) is split by
    coordinates; in the inner sum over features only q' = q survives. -/
theorem rowScatterAdd_apply {φ : FTy} (x : FVec Ideal ⟨2, ![N, D]⟩ φ) (upd : FVec Ideal ⟨2, ![E, D]⟩ φ) (d : Fin N) (q : Fin D) :
    Host.scatterAdd (F := Ideal) (rowScatter N E D wf) x idx upd (ix2 d q)
      = x (ix2 d q) + ∑ e ∈ Finset.univ.filter (fun e : Fin E => (idx (ix2 e 0)).toInt = (d.val : ℤ)), upd (ix2 e q) := by
  show Ideal.hostScatterAdd (rowScatter N E D wf) x idx upd (ix2 d q) = _
  unfold Ideal.hostScatterAdd
  congr 1
  rw [Finset.sum_filter, sum_idx2, Finset.sum_filter]
  refine Finset.sum_congr rfl fun e _ => ?_
  simp only [rowScatter_resultIdx_iff]
  by_cases hd : (idx (ix2 e 0)).toInt = (d.val : ℤ)
  · simp only [hd, true_and, if_true]
    rw [Finset.sum_ite_eq' Finset.univ q (fun q' => upd (ix2 e q'))]
    simp
  · simp only [hd, false_and, if_false]
    exact Finset.sum_const_zero

end Scatter

/-! ## Broadcasts read at an index -/

section Broadcasts
variable {α : Type}

/-- A scalar spread over any shape reads the scalar everywhere. -/
theorem bcastScalar_apply {t : Shape} (h : (⟨0, ![]⟩ : Shape).BroadcastsInDim t ![])
    (v : (⟨0, ![]⟩ : Shape).Idx → α) (j : t.Idx) : broadcastInDim t ![] h v j = v ix0 := by
  unfold broadcastInDim
  exact congrArg v (funext fun a => a.elim0)

/-- A vector as a column [E, 1], at (e, 0): the vector at e. -/
theorem bcastCol_apply {E : Nat} (h : (⟨1, ![E]⟩ : Shape).BroadcastsInDim ⟨2, ![E, 1]⟩ ![0])
    (v : (⟨1, ![E]⟩ : Shape).Idx → α) (e : Fin E) (z : Fin 1) :
    broadcastInDim ⟨2, ![E, 1]⟩ ![0] h v (ix2 e z) = v (ix1 e) := by
  refine broadcastInDim_apply _ h v _ (ix1 e) fun a => ?_
  match a with
  | ⟨0, _⟩ =>
    show e.val = if E = 1 then 0 else e.val
    have := e.isLt
    split <;> omega

/-- A column [E, 1] spread over D features, at (e, q): the column at (e, 0). -/
theorem bcastFeat_apply {E D : Nat} (h : (⟨2, ![E, 1]⟩ : Shape).BroadcastsInDim ⟨2, ![E, D]⟩ ![0, 1])
    (v : (⟨2, ![E, 1]⟩ : Shape).Idx → α) (e : Fin E) (q : Fin D) :
    broadcastInDim ⟨2, ![E, D]⟩ ![0, 1] h v (ix2 e q) = v (ix2 e 0) := by
  refine broadcastInDim_apply _ h v _ (ix2 e 0) fun a => ?_
  match a with
  | ⟨0, _⟩ =>
    show e.val = if E = 1 then 0 else e.val
    have := e.isLt
    split <;> omega
  | ⟨1, _⟩ =>
    show 0 = if 1 = 1 then 0 else q.val
    rfl

/-- A vector [D] as a row [1, D], at (0, q): the vector at q. -/
theorem bcastRow_apply {D : Nat} (h : (⟨1, ![D]⟩ : Shape).BroadcastsInDim ⟨2, ![1, D]⟩ ![1])
    (v : (⟨1, ![D]⟩ : Shape).Idx → α) (z : Fin 1) (q : Fin D) :
    broadcastInDim ⟨2, ![1, D]⟩ ![1] h v (ix2 z q) = v (ix1 q) := by
  refine broadcastInDim_apply _ h v _ (ix1 q) fun a => ?_
  match a with
  | ⟨0, _⟩ =>
    show q.val = if D = 1 then 0 else q.val
    have := q.isLt
    split <;> omega

/-- A row [1, D] spread over N rows, at (d, q): the row at (0, q). -/
theorem bcastRows_apply {N D : Nat} (h : (⟨2, ![1, D]⟩ : Shape).BroadcastsInDim ⟨2, ![N, D]⟩ ![0, 1])
    (v : (⟨2, ![1, D]⟩ : Shape).Idx → α) (d : Fin N) (q : Fin D) :
    broadcastInDim ⟨2, ![N, D]⟩ ![0, 1] h v (ix2 d q) = v (ix2 0 q) := by
  refine broadcastInDim_apply _ h v _ (ix2 0 q) fun a => ?_
  match a with
  | ⟨0, _⟩ =>
    show 0 = if 1 = 1 then 0 else d.val
    rfl
  | ⟨1, _⟩ =>
    show q.val = if D = 1 then 0 else q.val
    have := q.isLt
    split <;> omega

end Broadcasts

/-! ## The start word of a row lookup: a negative word counts from the end -/

/-- The select on "the word is negative" between the word plus the row count and the word itself. -/
theorem wrap_select (s n : BitVec 32) :
    Scalar.select (IntOp.cmpi .slt s 0#32) (IntOp.addi s n) s = if s.toInt < 0 then s + n else s := by
  by_cases h : s.toInt < 0
  · have hc : IntOp.cmpi .slt s 0#32 = 1#1 := IntOp.cmpi_slt.mpr (by simpa using h)
    rw [hc, select_one, if_pos h]
    rfl
  · have hc : ¬IntOp.cmpi .slt s 0#32 = 1#1 := fun hc => h (by simpa using IntOp.cmpi_slt.mp hc)
    rw [eq_zero_of_ne_one hc, select_zero, if_neg h]

/-! ## The rectifier read at an index -/

/-- The maximum with a zero scalar spread over the shape is the maximum with 0, entry by entry. -/
theorem reluOps_apply {t : Shape} (hz : (⟨0, ![]⟩ : Shape).BroadcastsInDim t ![]) (x : FVec Ideal t .f32) (i : t.Idx) :
    maximumf x (broadcastInDim t ![] hz (constant (F := Ideal) ⟨0, ![]⟩ .f32 0x00000000#32)) i = max (x i) 0 := by
  rw [maximumf_apply, bcastScalar_apply, constant_apply, Ideal.ofBits_zero_f32]

end Cert.ReferenceIdeal.Hand

end
-- ==== Proof.RefSpec.lean ====
/-
  The reference computes `score`: its result at edge `e` is the host sum, from the initial value 0, over the 128
  features of the product of the two gathered rows; each gather reads the table at the start word of `e`, which for a
  word in range is the word itself (the "negative counts from the end" select keeps a non-negative word) and names
  the row with that number.
-/
import proofs.«428832_j40724879901345_3_alg».proof.Proof.Gen.ReferenceIdeal.Read
import proofs.«428832_j40724879901345_3_alg».proof.Proof.Spec
import proofs.«428832_j40724879901345_3_alg».proof.Proof.LibRowGatherScatter

noncomputable section

open scoped BigOperators

namespace Cert.GatherDot.Ref

open Cert.ReferenceIdeal Cert.ReferenceIdeal.Gen Cert.ReferenceIdeal.Read Cert.ReferenceIdeal.Hand
open Idealize.ShloMosaic Idealize.ShloMosaic.ValueIdx Cert.GatherDot

/-- The source start word of edge `e`: a word in range is kept as it is. -/
theorem start_src (x1 : (⟨S640000, .i32⟩ : BufTy).Contents (Elt Ideal)) (hs : InRange x1) (e : Fin 640000) :
    val_main_v5 (F := Ideal) x1 (ix2 e 0) = x1 (ix1 e) := by
  rw [val_main_v5_apply, val_main_v4_apply, val_main_v1_apply, val_main_v3_apply, val_main_v0_apply, val_main_v2_apply,
    val_main_c_apply, val_main_c_0_apply]
  have : idx_main_v5 (ix2 e (0 : Fin 1)) = ix1 e := funext fun a => Fin.ext (by match a with | ⟨0, _⟩ => rfl)
  rw [this, wrap_select, if_neg (not_lt.mpr (hs e).1)]

/-- The destination start word of edge `e`, likewise. -/
theorem start_dst (x2 : (⟨S640000, .i32⟩ : BufTy).Contents (Elt Ideal)) (hd : InRange x2) (e : Fin 640000) :
    val_main_v12 (F := Ideal) x2 (ix2 e 0) = x2 (ix1 e) := by
  rw [val_main_v12_apply, val_main_v11_apply, val_main_v8_apply, val_main_v10_apply, val_main_v7_apply, val_main_v9_apply,
    val_main_c_1_apply, val_main_c_2_apply]
  have : idx_main_v12 (ix2 e (0 : Fin 1)) = ix1 e := funext fun a => Fin.ext (by match a with | ⟨0, _⟩ => rfl)
  rw [this, wrap_select, if_neg (not_lt.mpr (hd e).1)]

/-- The gathered source row of edge `e` at feature `q`. -/
theorem gather_src (x0 : (⟨S10000x128, .f32⟩ : BufTy).Contents (Elt Ideal)) (x1 : (⟨S640000, .i32⟩ : BufTy).Contents (Elt Ideal))
    (hs : InRange x1) (e : Fin 640000) (q : Fin 128) :
    val_main_v6 (F := Ideal) x0 x1 (ix2 e q) = x0 (ix2 (rowOf (x1 (ix1 e))) q) := by
  unfold val_main_v6
  exact rowGather_apply_of_eq (by decide) gather_S10000x128_S640000x1_S640000x128_1_0_n_n_0_1_1128_wf x0
    (val_main_v5 (F := Ideal) x1) e q _ (start_src x1 hs e)

/-- The gathered destination row of edge `e` at feature `q`. -/
theorem gather_dst (x0 : (⟨S10000x128, .f32⟩ : BufTy).Contents (Elt Ideal)) (x2 : (⟨S640000, .i32⟩ : BufTy).Contents (Elt Ideal))
    (hd : InRange x2) (e : Fin 640000) (q : Fin 128) :
    val_main_v13 (F := Ideal) x0 x2 (ix2 e q) = x0 (ix2 (rowOf (x2 (ix1 e))) q) := by
  unfold val_main_v13
  exact rowGather_apply_of_eq (by decide) gather_S10000x128_S640000x1_S640000x128_1_0_n_n_0_1_1128_wf x0
    (val_main_v12 (F := Ideal) x2) e q _ (start_dst x2 hd e)

/-- THE REFERENCE IS `score`, for index arrays in range. -/
theorem ref_eq_score (x0 : (⟨S10000x128, .f32⟩ : BufTy).Contents (Elt Ideal)) (x1 x2 : (⟨S640000, .i32⟩ : BufTy).Contents (Elt Ideal))
    (hs : InRange x1) (hd : InRange x2) :
    val_main_v16 (F := Ideal) x0 x1 x2 = score x0 x1 x2 := by
  funext i
  rw [val_main_v16_apply, val_main_v15_apply, val_main_cst_apply]
  show Ideal.ofBits .f32 0x00000000#32 + _ = _
  rw [Ideal.ofBits_zero_f32, zero_add]
  unfold score
  refine Finset.sum_congr rfl fun q _ => ?_
  rw [val_main_v14_apply]
  have hj : idx_main_v15 (idx_main_v16 i) q = ix2 (⟨(i 0).val, (i 0).isLt⟩ : Fin 640000) q :=
    funext fun a => Fin.ext (by match a with | ⟨0, _⟩ => rfl | ⟨1, _⟩ => rfl)
  rw [hj, gather_src x0 x1 hs, gather_dst x0 x2 hd]
  rfl

end Cert.GatherDot.Ref

end
-- ==== Proof.Pre.lean ====
/-
  The precondition read back: beside the finiteness of the table, it says of every entry of `src` and of `dst`
  that it is at least 0 and below 10000 as a signed word. Each `jnp.all` is a reduction by `and` from 1 into one
  result that is 1, so every element reduced is 1; an element is the `and` of the two comparisons' bits.
-/
import proofs.«428832_j40724879901345_3_alg».proof.Pre_finite_inputs
import proofs.«428832_j40724879901345_3_alg».proof.Proof.Gen.Pre_finite_inputs
import proofs.«428832_j40724879901345_3_alg».proof.Proof.Spec
import Idealize.ShloMosaic.Lib.ReduceAll
import Idealize.ShloMosaic.Lib.Affine

noncomputable section

namespace Cert.GatherDot.Pre

open Cert.Pre_finite_inputs Cert.Pre_finite_inputs.Gen Idealize.ShloMosaic Idealize.ShloMosaic.ValueIdx Cert.GatherDot

instance : Subsingleton S_.Idx := ⟨fun a b => funext fun d => d.elim0⟩

theorem and1 : ∀ (a b : BitVec 1), IntOp.andi a b = 1#1 ↔ a = 1#1 ∧ b = 1#1 := by decide

/-- One index array's conjunct: the reduction of (entry ≥ 0 and entry < 10000) is 1, so every entry is in range. -/
theorem inRange_of_all (w : IVec S640000 32)
    (e : Host.reduce IntOp.andi
        (andi (cmpi .sge w (broadcastInDim S640000 ![] Facts.bcast_S_S640000 (constantI S_ 32 0#32)))
          (cmpi .slt w (broadcastInDim S640000 ![] Facts.bcast_S_S640000 (constantI S_ 32 10000#32))))
        (constantI S_ 1 1#1) Facts.reducesTo_S640000_S_d0 Facts.h_S_ ix0 = 1#1) : InRange w := by
  intro k
  have hk := Host.reduce_andi_all _ _ _ _ ix0 e (ix1 k)
  have hk' : IntOp.andi (IntOp.cmpi .sge (w (ix1 k)) 0#32) (IntOp.cmpi .slt (w (ix1 k)) 10000#32) = 1#1 := hk
  obtain ⟨h0, h1⟩ := (and1 _ _).mp hk'
  have h0' := IntOp.cmpi_sge.mp h0
  have h1' := IntOp.cmpi_slt.mp h1
  have z : (0#32 : BitVec 32).toInt = 0 := by decide
  have t : (10000#32 : BitVec 32).toInt = 10000 := by decide
  rw [z] at h0'; rw [t] at h1'
  exact ⟨h0', h1'⟩

/-- THE PRECONDITION gives both index arrays in range, at any float instance. -/
theorem inRange_of_pre {F : FTy → Type} [FloatOps F] (h : FVec F S10000x128 .f32) (src dst : IVec S640000 32)
    (e : fn (F := F) h src dst = fun _ => 1#1) : InRange src ∧ InRange dst := by
  have e0 := congrFun e ix0
  unfold fn fn_part1 at e0
  dsimp only at e0
  obtain ⟨h10, h16⟩ := (and1 _ _).mp e0
  obtain ⟨-, h9⟩ := (and1 _ _).mp h10
  exact ⟨inRange_of_all src h9, inRange_of_all dst h16⟩

end Cert.GatherDot.Pre

end
-- ==== Proof.lean ====
/-
  The certificate of the edge-score kernel: for every edge, the inner product over 128 features of the table rows
  named by the edge's source and destination words.

  The kernel looks a row up by multiplying a 0/1 selection matrix (index word = node id) into the table, one tile of
  2048 node ids at a time, and accumulating; over the extended reals every product with 0 is 0 and with 1 is the
  entry itself, so the accumulated rows are exactly the table rows the index words name, provided each word is one of
  the 10000 row numbers — the precondition says so of both index arrays (outside that range the reference clamps or
  counts from the end while the kernel selects nothing). The reference gathers the same rows directly. Both then sum
  the products of the two rows over the features, the reference from an initial value 0. So both results are the
  function `score` of the three arguments.

  The three frames are the generated ones (the reference's is its generated run with the result dropped); the
  idealization rewrote nothing, so `preserves` is trivial.
-/
import proofs.«428832_j40724879901345_3_alg».proof.Defs
import proofs.«428832_j40724879901345_3_alg».proof.Proof.Gen.Kernel
import proofs.«428832_j40724879901345_3_alg».proof.Proof.Gen.Kernel.Skeleton
import proofs.«428832_j40724879901345_3_alg».proof.Proof.Gen.Kernel.Loops
import proofs.«428832_j40724879901345_3_alg».proof.Proof.Gen.Kernel.Launch
import proofs.«428832_j40724879901345_3_alg».proof.Proof.Gen.Kernel.Points
import proofs.«428832_j40724879901345_3_alg».proof.Proof.Gen.Kernel.Frame
import proofs.«428832_j40724879901345_3_alg».proof.Proof.Gen.KernelIdeal
import proofs.«428832_j40724879901345_3_alg».proof.Proof.Gen.KernelIdeal.Skeleton
import proofs.«428832_j40724879901345_3_alg».proof.Proof.Gen.KernelIdeal.Loops
import proofs.«428832_j40724879901345_3_alg».proof.Proof.Gen.KernelIdeal.Launch
import proofs.«428832_j40724879901345_3_alg».proof.Proof.Gen.KernelIdeal.Points
import proofs.«428832_j40724879901345_3_alg».proof.Proof.Gen.KernelIdeal.Frame
import proofs.«428832_j40724879901345_3_alg».proof.Proof.Gen.ReferenceIdeal
import proofs.«428832_j40724879901345_3_alg».proof.Proof.Gen.Pre_finite_inputs
import proofs.«428832_j40724879901345_3_alg».proof.Proof.Gen.KernelIdeal.Value
import proofs.«428832_j40724879901345_3_alg».proof.Proof.Gen.ReferenceIdeal.Run
import proofs.«428832_j40724879901345_3_alg».proof.Proof.Gen.ReferenceIdeal.Read
import proofs.«428832_j40724879901345_3_alg».proof.Proof.KernelValue
import proofs.«428832_j40724879901345_3_alg».proof.Proof.RefSpec
import proofs.«428832_j40724879901345_3_alg».proof.Proof.Pre
import Idealize.ShloMosaic.Adequacy
import Idealize.ShloMosaic.Init

noncomputable section

namespace Cert.Proof

open Idealize.ShloMosaic Idealize.SL.Sem Cert.GatherDot

theorem frame_k : Cert.frame_Kernel (hKernel := Cert.Kernel.Gen.facts) (hPre_finite_inputs := Cert.Pre_finite_inputs.Gen.facts) :=
  fun m ρ _ => Cert.Kernel.Gen.frame m ρ

theorem frame_ki : Cert.frame_KernelIdeal (hKernelIdeal := Cert.KernelIdeal.Gen.facts) (hPre_finite_inputs := Cert.Pre_finite_inputs.Gen.facts) :=
  fun m ρ _ => Cert.KernelIdeal.Gen.frame m ρ

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- Both programs end with `score` of the arguments in their result arrays: the kernel by its value read block by
    block (`Cert.KernelIdeal.Final.final`), the reference by its run read operation by operation
    (`Cert.GatherDot.Ref.ref_eq_score`); the index arrays are in range by the precondition. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  have hr := fun c => Cert.GatherDot.Pre.inRange_of_pre (F := Ideal) _ _ _ (hpre c)
  refine ⟨fun c => score (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)), ?_, ?_⟩
  · exact (θ_run Cert.KernelIdeal.defs _ _).mono
      (fun r h c => ⟨(h c).1.trans (Cert.KernelIdeal.Final.final m c (hr c).1 (hr c).2), (h c).2⟩)
      (Cert.KernelIdeal.Value.run_blocks m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v16_eq, (hagree c).1, (hagree c).2.1, (hagree c).2.2]
    exact Cert.GatherDot.Ref.ref_eq_score _ _ _ (hr c).1 (hr c).2

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
